-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_

variable [Facts]

def fn {F : FTy → Type} [FloatOps F] (main_arg0 : FVec F S10000x10000 .f32) (main_arg1 : FVec F S10000x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  main_v8
-- ==== Kernel.lean ====
abbrev S10000x10000 : Shape := ⟨2, ![10000, 10000]⟩
abbrev S10000x128 : Shape := ⟨2, ![10000, 128]⟩
abbrev S512x10000 : Shape := ⟨2, ![512, 10000]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S10000x128, .f32⟩
  | .local _ .vmem, ⟨0, _⟩ => ⟨S512x10000, .f32⟩
  | .local _ .vmem, ⟨1, _⟩ => ⟨S512x10000, .f32⟩
  | .local _ .vmem, ⟨2, _⟩ => ⟨S10000x128, .f32⟩
  | .local _ .vmem, ⟨3, _⟩ => ⟨S512x128, .f32⟩
  | .local _ .vmem, ⟨4, _⟩ => ⟨S512x128, .f32⟩
  | .local _ .vmem, ⟨5, _⟩ => ⟨S10000x128, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S512x10000_S512x10000_0_0 : ∀ a, (![0, 0] : Fin 2 → Nat) a + S512x10000.size a ≤ S512x10000.size a
  h_S512x10000 : 0 < S512x10000.numel
  inb_S512x128_S512x128_0_0 : ∀ a, (![0, 0] : Fin 2 → Nat) a + S512x128.size a ≤ S512x128.size a
  h_S512x128 : 0 < S512x128.numel
  dot_S512x10000_S10000x128_S512x128_1_0_0_1_n_n_wf : DotDims.WF S512x10000 S10000x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x10000.size a < S10000x10000.size a
  hwx0_0 : ∀ i : grid0.Coords, EltTy.bits .f32 = 32 ∨ (Rect.unit (s := S10000x10000) (fun a => cc0_transform_0 i a * S512x10000.size a) (fun a => (Pipeline.Clip.of (cc0_transform_0 i a) (S512x10000.size a) (S10000x10000.size a)).extent (S512x10000.size a)) fun a => Pipeline.Clip.inb (Pipeline.Clip.ok_of (hstart0_0 i a))).WholeWords (EltTy.packing .f32)
  hwxs0_0 : ∀ i : grid0.Coords, EltTy.bits .f32 = 32 ∨ (Rect.unit (s := S512x10000) (fun _ => 0) (fun a => (Pipeline.Clip.of (cc0_transform_0 i a) (S512x10000.size a) (S10000x10000.size a)).extent (S512x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x128.size a < S10000x128.size a
  hwx0_2 : ∀ i : grid0.Coords, EltTy.bits .f32 = 32 ∨ (Rect.unit (s := S10000x128) (fun a => cc0_transform_2 i a * S512x128.size a) (fun a => (Pipeline.Clip.of (cc0_transform_2 i a) (S512x128.size a) (S10000x128.size a)).extent (S512x128.size a)) fun a => Pipeline.Clip.inb (Pipeline.Clip.ok_of (hstart0_2 i a))).WholeWords (EltTy.packing .f32)
  hwxs0_2 : ∀ i : grid0.Coords, EltTy.bits .f32 = 32 ∨ (Rect.unit (s := S512x128) (fun _ => 0) (fun a => (Pipeline.Clip.of (cc0_transform_2 i a) (S512x128.size a) (S10000x128.size a)).extent (S512x128.size a)) fun a => (Nat.zero_add _).trans_le (Pipeline.Clip.extent_le (Pipeline.Clip.ok_of (hstart0_2 i a)))).WholeWords (EltTy.packing .f32)

variable [Facts₀]

def dot_S512x10000_S10000x128_S512x128_1_0_0_1_n_n : DotDims S512x10000 S10000x128 S512x128 where
  lhsContracting := [1]
  rhsContracting := [0]
  lhsNonContracting := [0]
  rhsNonContracting := [1]
  lhsBatch := []
  rhsBatch := []
  wf := dot_S512x10000_S10000x128_S512x128_1_0_0_1_n_n_wf

abbrev win0_0 : Pipeline.Window sig grid0 :=
  Pipeline.Window.ofSpecClip (Memref.whole main_arg0) S512x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S512x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩

abbrev nBuf : Space → Nat
  | .hbm => 3
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KRuns.lean ====
/-
  The kernel body run once for each of its two control cases, on whole staging memrefs.

  The body is called at every point of a grid of twenty. At the first point it casts the whole
  embedding table (10000 × 128) to the narrow format and keeps it in a scratch buffer; at every point
  it multiplies its 512 × 10000 block of the adjacency, cast likewise, by the scratch's contents
  into a zero accumulator and stores the 512 × 128 product in the result's staging buffer.
  Each run is a subtype: the lists of pieces its stores leave in the result's buffer (and, at the
  first point, in the scratch) together with the weakest-precondition fact that from the buffers at
  given contents the body reaches any continuation that accepts the buffers with those pieces written.
-/
import proofs.«161093_g54185307407137_cont_9to1_m_922_8_alg».proof.Proof.Gen.Kernel.Frame
import proofs.«161093_g54185307407137_cont_9to1_m_922_8_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-- The body's one branch condition, from the grid coordinate: "this is the first point". -/
abbrev isFirst (i : grid0.Coords) : Prop :=
  (Scalar.cmpi .ne (Scalar.extui (Scalar.cmpi .eq (BitVec.ofNat 32 (i 0).val) 0#32)) 0#32) = 1#1

/-- Over the grid of twenty it holds exactly at point 0. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- The first point: the embedding buffer at `x2`, the adjacency block's buffer at `x1`, the result's buffer and
    the scratch at anything. The scratch is stored whole (pieces `LS`), then read back for the product, which is
    stored whole into the result's buffer (pieces `L3`). -/
noncomputable def runFirst (c : Dev nD) (i : grid0.Coords)
    (arg1 : Memref sig .tc .vmem S512x10000 .f32) (harg1 : arg1.IsWhole) (arg2 : Memref sig .tc .vmem S10000x128 .f32) (harg2 : arg2.IsWhole)
    (arg3 : Memref sig .tc .vmem S512x128 .f32) (harg3 : arg3.IsWhole) (arg4 : Memref sig .tc .vmem S10000x128 .bf16) (harg4 : arg4.IsWhole)
    (hc : isFirst i) (x1 : Vec F S512x10000 .f32) (x2 : Vec F S10000x128 .f32) :
    Σ' (L3 : List (View.Piece (Elt F) S512x128 .f32)), { LS : List (View.Piece (Elt F) S10000x128 .bf16) //
      ∀ (E : Set ℕ) (K : PUnit → sProp 𝕄),
        iprop(owns (c : Thread nD τ) arg1 fullShare x1 ∗ owns (c : Thread nD τ) arg2 fullShare x2
            ∗ (∃ d, owns (c : Thread nD τ) arg3 fullShare d) ∗ (∃ d, owns (c : Thread nD τ) arg4 fullShare d)
            ∗ (iprop(owns (c : Thread nD τ) arg1 fullShare x1 ∗ owns (c : Thread nD τ) arg2 fullShare x2
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f LS)) -∗ K ⟨⟩))
          ⊢ wp frame (wpE (defs₀ (F := F)) Variants.none c none) E (cc0__gcn_body i arg1 harg1 arg2 harg2 arg3 harg3 arg4 harg4) K } := by
  refine ⟨?_, ?_, fun E K => ?run⟩
  case run =>
    simp only [cc0__gcn_body_eq_skeleton]; unfold cc0__gcn_body_skel
    unfold owns
    iintro ⟨⟨%f1, %hf1, H1⟩, ⟨%f2, %hf2, H2⟩, ⟨%d3, %f3, -, H3⟩, ⟨%d4, %f4, -, H4⟩, Hk⟩
    obtain rfl := harg1.eq_unread hf1; obtain rfl := harg2.eq_unread hf2
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact H4

set_option maxHeartbeats 1000000 in
/-- Every later point: the scratch arrives at `xs` and is only read; the product is stored whole into the
    result's buffer (pieces `L3`). The embedding's buffer is not touched. -/
noncomputable def runLater (c : Dev nD) (i : grid0.Coords)
    (arg1 : Memref sig .tc .vmem S512x10000 .f32) (harg1 : arg1.IsWhole) (arg2 : Memref sig .tc .vmem S10000x128 .f32) (harg2 : arg2.IsWhole)
    (arg3 : Memref sig .tc .vmem S512x128 .f32) (harg3 : arg3.IsWhole) (arg4 : Memref sig .tc .vmem S10000x128 .bf16) (harg4 : arg4.IsWhole)
    (hc : ¬isFirst i) (x1 : Vec F S512x10000 .f32) (xs : Vec F S10000x128 .bf16) :
    { L3 : List (View.Piece (Elt F) S512x128 .f32) //
      ∀ (x2 : Vec F S10000x128 .f32) (E : Set ℕ) (K : PUnit → sProp 𝕄),
        iprop(owns (c : Thread nD τ) arg1 fullShare x1 ∗ owns (c : Thread nD τ) arg2 fullShare x2
            ∗ (∃ d, owns (c : Thread nD τ) arg3 fullShare d) ∗ owns (c : Thread nD τ) arg4 fullShare xs
            ∗ (iprop(owns (c : Thread nD τ) arg1 fullShare x1 ∗ owns (c : Thread nD τ) arg2 fullShare x2
                ∗ (∃ f, arg3.view.loc (c : Thread nD τ) ↦[arg3.view.set]{fullShare} arg3.view.writes (Elt F) f L3)
                ∗ owns (c : Thread nD τ) arg4 fullShare xs) -∗ K ⟨⟩))
          ⊢ wp frame (wpE (defs₀ (F := F)) Variants.none c none) E (cc0__gcn_body i arg1 harg1 arg2 harg2 arg3 harg3 arg4 harg4) K } := by
  refine ⟨?_, fun x2 E K => ?run⟩
  case run =>
    simp only [cc0__gcn_body_eq_skeleton]; unfold cc0__gcn_body_skel
    unfold owns
    iintro ⟨⟨%f1, %hf1, H1⟩, ⟨%f2, %hf2, H2⟩, ⟨%d3, %f3, -, H3⟩, ⟨%f4, %hf4, H4⟩, Hk⟩
    obtain rfl := harg1.eq_unread hf1; obtain rfl := harg4.eq_unread hf4
    sl_exec (disch := exact hc)
    sl_step
    iapply Hk
    isplitl [H1]
    · iexists _; isplitr; · ipureintro; exact harg1.read_unread _
      iexact H1
    isplitl [H2]
    · iexists _; isplitr; · ipureintro; exact hf2
      iexact H2
    isplitl [H3]; · iexists _; iexact H3
    iexists _; isplitr; · ipureintro; exact harg4.read_unread _
    iexact H4

end Cert.Kernel.Body

end
-- ==== Proof.KPieces.lean ====
/-
  What the body's stores leave, read back: at the first point the scratch holds the narrow cast of the
  embedding buffer's contents and the result's buffer the product of the (cast) adjacency block by that; at a
  later point the result's buffer holds the product of the block by whatever the scratch arrived holding.
  Each is the one whole-buffer store of its run, so the canonical contents of the piece list is the payload.
-/
import proofs.«161093_g54185307407137_cont_9to1_m_922_8_alg».proof.Proof.KRuns
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section
variable (c : Dev nD) (i : grid0.Coords)
    (arg1 : Memref sig .tc .vmem S512x10000 .f32) (harg1 : arg1.IsWhole) (arg2 : Memref sig .tc .vmem S10000x128 .f32) (harg2 : arg2.IsWhole)
    (arg3 : Memref sig .tc .vmem S512x128 .f32) (harg3 : arg3.IsWhole) (arg4 : Memref sig .tc .vmem S10000x128 .bf16) (harg4 : arg4.IsWhole)

theorem coverFirst_sc (hc : isFirst i) (x1 : Vec F S512x10000 .f32) (x2 : Vec F S10000x128 .f32) (y : S10000x128.Idx) :
    ∃ pc ∈ (runFirst c i arg1 harg1 arg2 harg2 arg3 harg3 arg4 harg4 hc x1 x2).2.1, y ∈ pc.1.set :=
  View.cover_of_tiledL _ S10000x128.size (by sl_kernel_rfl) y

theorem coverFirst_out (hc : isFirst i) (x1 : Vec F S512x10000 .f32) (x2 : Vec F S10000x128 .f32) (y : S512x128.Idx) :
    ∃ pc ∈ (runFirst c i arg1 harg1 arg2 harg2 arg3 harg3 arg4 harg4 hc x1 x2).1, y ∈ pc.1.set :=
  View.cover_of_tiledL _ S512x128.size (by sl_kernel_rfl) y

theorem coverLater_out (hc : ¬isFirst i) (x1 : Vec F S512x10000 .f32) (xs : Vec F S10000x128 .bf16) (y : S512x128.Idx) :
    ∃ pc ∈ (runLater c i arg1 harg1 arg2 harg2 arg3 harg3 arg4 harg4 hc x1 xs).1, y ∈ pc.1.set :=
  View.cover_of_tiledL _ S512x128.size (by sl_kernel_rfl) y

theorem canonFirst_sc (hc : isFirst i) (x1 : Vec F S512x10000 .f32) (x2 : Vec F S10000x128 .f32) :
    View.canon (runFirst c i arg1 harg1 arg2 harg2 arg3 harg3 arg4 harg4 hc x1 x2).2.1 = k0_pay1 x2 := by
  unfold runFirst; dsimp only; sl_unfold_words
  rw [View.canon_unit_zero hz2]
  simp only [View.readAt_eq_ld, harg2.read_unread, View.ld_unit_zero (S := S10000x128) hz2]

theorem canonFirst_out (hc : isFirst i) (x1 : Vec F S512x10000 .f32) (x2 : Vec F S10000x128 .f32) :
    View.canon (runFirst c i arg1 harg1 arg2 harg2 arg3 harg3 arg4 harg4 hc x1 x2).1 = k0_pay2 x1 (k0_pay1 x2) := by
  unfold runFirst; dsimp only; sl_unfold_words
  rw [View.canon_unit_zero hz2]
  simp only [View.readAt_eq_ld, harg1.read_unread, harg2.read_unread, View.ld_unit_zero (S := S10000x128) hz2,
    View.ld_unit_zero (S := S512x10000) hz2, View.readCov_unit_zero (S := S10000x128) _ hz2]

theorem canonLater_out (hc : ¬isFirst i) (x1 : Vec F S512x10000 .f32) (xs : Vec F S10000x128 .bf16) :
    View.canon (runLater c i arg1 harg1 arg2 harg2 arg3 harg3 arg4 harg4 hc x1 xs).1 = k0_pay2 x1 xs := by
  unfold runLater; dsimp only; sl_unfold_words
  rw [View.canon_unit_zero hz2]
  simp only [View.readAt_eq_ld, harg1.read_unread, harg4.read_unread, View.ld_unit_zero (S := S10000x128) hz2,
    View.ld_unit_zero (S := S512x10000) hz2]
end

end Cert.Kernel.Body

end
-- ==== Proof.KFrame.lean ====
/-
  The frame of the program: it terminates, nothing faults, and the adjacency and the embedding table end as
  they began. Nothing is said here of the result array: the last of the twenty row blocks overhangs the
  adjacency by 240 rows, the fetch of that block leaves words nothing names in the staging buffer's tail, and at
  the word level the product of a block with such a tail is not a function of the rows inside the array; so
  the result's staging buffer is handed to the body and taken back at contents left unnamed. What IS tracked from
  point to point is the scratch: after the first point it holds the narrow cast of the embedding table as that
  point's buffer held it, and every later point finds it so and leaves it so.
-/
import proofs.«161093_g54185307407137_cont_9to1_m_922_8_alg».proof.Proof.KPieces

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it to the body. -/
abbrev ms0 (t : Fin cfg0.N) : Memref sig .tc .vmem S512x10000 .f32 := win0_0.stage (cfg0.slots t 0)
abbrev ms1 (t : Fin cfg0.N) : Memref sig .tc .vmem S10000x128 .f32 := win0_1.stage (cfg0.slots t 1)
abbrev ms2 (t : Fin cfg0.N) : Memref sig .tc .vmem S512x128 .f32 := win0_2.stage (cfg0.slots t 2)
/-- The scratch: a whole scoped buffer of the kernel's own. -/
abbrev scM : Memref sig .tc .vmem S10000x128 .bf16 := Memref.whole cc0_scratch0

/-- What the launch hands the region: the scratch at anything, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The first grid point. -/
abbrev t0 : Fin cfg0.N := ⟨0, by decide⟩

/-- The embedding table as the first point's staging buffer holds it. -/
def embBlk (c : Dev nD) : Vec F S10000x128 .f32 := iblk m c 1 t0

/-- The invariant before position `n`: at the start the launch's; afterwards the scratch at the narrow cast of the
    embedding table. -/
def PhiS (c : Dev nD) : ℕ → sProp 𝕄
  | 0 => Pipeline.ΦA spec0 c
  | _ + 1 => iprop(iprop(owns (c : Thread nD τ) scM fullShare (k0_pay1 (embBlk m c))) ∗ (∃ r, prngReg c r))

theorem PhiS_succ (c : Dev nD) (n : ℕ) :
    PhiS m c (n + 1) = iprop(iprop(owns (c : Thread nD τ) scM fullShare (k0_pay1 (embBlk m c))) ∗ (∃ r, prngReg c r)) := rfl

theorem PhiS_pos (c : Dev nD) (n : ℕ) (hn : n ≠ 0) :
    PhiS m c n = iprop(iprop(owns (c : Thread nD τ) scM fullShare (k0_pay1 (embBlk m c))) ∗ (∃ r, prngReg c r)) := by
  cases n with
  | zero => exact absurd rfl hn
  | succ n => rfl

/-- The windows the frame says nothing of: the result's. -/
abbrev fgtOut : Fin cfg0.W → Bool := fun | 0 => false | 1 => false | 2 => true | ⟨_ + 3, h⟩ => absurd h (Nat.not_lt.2 (Nat.le_add_left _ _))

/-- The proof data: the arrays as launched; after the body the adjacency block's buffer holds the block on the rows
    inside the array (elsewhere unconstrained: the zero filler is never read), the embedding's buffer the table; the
    result's buffer is unnamed. -/
def datsF (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => fun _ => Scalar.ofBits .f32 0#32
  Φ t := PhiS m c t.val
  q _ := fullShare
  owed _ := 0

/-- The adjacency block's buffer was just fetched: the block on the rows inside the array, `d` past them. -/
theorem beforeF_0 (c : Dev nD) (t : Fin cfg0.N) (d) :
    (datsF m 0 c).before 0 t d = win0_0.fill (grid0.coords t) d (iblk m c 0 t) := by
  unfold Dat.before; rw [if_pos (fetch0_0 t)]; rfl

/-- The embedding's buffer holds the table at every point, fetched there or not. -/
theorem beforeF_1 (c : Dev nD) (t : Fin cfg0.N) (d) : (datsF m 0 c).before 1 t d = iblk m c 1 t :=
  before0_1_of m (datsF m 0 c) rfl (fun _ => rfl) t d

set_option maxHeartbeats 1600000 in
/-- The body at any point. -/
theorem sound_bodyF (c : Dev nD) (t : Fin cfg0.N) :
    iprop((datsF m 0 c).Φ t.castSucc ∗ (datsF m 0 c).owesAt () t.castSucc
      ∗ (∃ d, owns (c : Thread nD τ) (ms0 t) fullShare ((datsF m 0 c).before 0 t d))
      ∗ (∃ d, owns (c : Thread nD τ) (ms1 t) fullShare ((datsF m 0 c).before 1 t d))
      ∗ (∃ X, owns (c : Thread nD τ) (ms2 t) fullShare X))
    ⊢ wp frame (wpE (defs₀ (F := F)) Variants.none c none) Set.univ (bodyAt0 t) (fun _ =>
      iprop((datsF m 0 c).Φ t.succ ∗ (datsF m 0 c).owesAt () t.succ
        ∗ (∃ d, owns (c : Thread nD τ) (ms0 t) fullShare (win0_0.fill (grid0.coords t) d (win0_0.cut (grid0.coords t) ((datsF m 0 c).after 0 t))))
        ∗ owns (c : Thread nD τ) (ms1 t) fullShare ((datsF m 0 c).after 1 t)
        ∗ (∃ X, owns (c : Thread nD τ) (ms2 t) fullShare X))) := by
  unfold bodyAt0
  simp only [beforeF_0, beforeF_1]
  rw [show (datsF m 0 c).owesAt () t.succ = (datsF m 0 c).owesAt () t.castSucc from rfl]
  rw [show (datsF m 0 c).Φ t.succ = PhiS m c (t.val + 1) from rfl,
    show (datsF m 0 c).Φ t.castSucc = PhiS m c t.val from rfl, PhiS_succ]
  have hcut : win0_0.cut (grid0.coords t) ((datsF m 0 c).after 0 t) = iblk m c 0 t := win0_0.cut_fill _ _ _
  rw [hcut, show (datsF m 0 c).after 1 t = iblk m c 1 t from rfl]
  by_cases hz : t.val = 0
  · have hc : isFirst (grid0.coords t) := (isFirst_iff t).mpr hz
    have ht : t = t0 := Fin.ext hz
    rw [show PhiS m c t.val = Pipeline.ΦA spec0 c from by rw [hz]; rfl, PhiA_eq]
    iintro ⟨⟨HS, Hg⟩, Ho, ⟨%d0, H0⟩, ⟨%d1, H1⟩, H2⟩
    iapply ((runFirst c (grid0.coords t) _ _ _ _ _ _ _ _ hc (win0_0.fill (grid0.coords t) d0 (iblk m c 0 t)) (iblk m c 1 t)).2.2 Set.univ _)
    isplitl [H0]; · iexact H0
    isplitl [H1]; · iexact H1
    isplitl [H2]; · iexact H2
    isplitl [HS]; · iexact HS
    iintro ⟨H0, H1, ⟨%e3, H3⟩, ⟨%e4, H4⟩⟩
    isplitl [H4 Hg]
    · isplitl [H4]
      · unfold owns; iexists _; isplitr
        swap; · iexact H4
        ipureintro
        rw [View.read_writes_eq_canon _ _ _ (coverFirst_sc c _ _ _ _ _ _ _ _ _ _ _ _), canonFirst_sc, ht]; rfl
      iexact Hg
    isplitl [Ho]; · iexact Ho
    isplitl [H0]; · iexists d0; iexact H0
    isplitl [H1]; · iexact H1
    iexists _; unfold owns; iexists _; isplitr
    swap; · iexact H3
    ipureintro; rfl
  · have hc : ¬isFirst (grid0.coords t) := fun h => hz ((isFirst_iff t).mp h)
    rw [PhiS_pos m c t.val hz]
    iintro ⟨⟨HS, Hg⟩, Ho, ⟨%d0, H0⟩, ⟨%d1, H1⟩, H2⟩
    iapply ((runLater c (grid0.coords t) _ _ _ _ _ _ _ _ hc (win0_0.fill (grid0.coords t) d0 (iblk m c 0 t)) (k0_pay1 (embBlk m c))).2 (iblk m c 1 t) Set.univ _)
    isplitl [H0]; · iexact H0
    isplitl [H1]; · iexact H1
    isplitl [H2]; · iexact H2
    isplitl [HS]; · iexact HS
    iintro ⟨H0, H1, ⟨%e3, H3⟩, HS⟩
    isplitl [HS Hg]
    · isplitl [HS]; · iexact HS
      iexact Hg
    isplitl [Ho]; · iexact Ho
    isplitl [H0]; · iexists d0; iexact H0
    isplitl [H1]; · iexact H1
    iexists _; unfold owns; iexists _; isplitr
    swap; · iexact H3
    ipureintro; rfl

/-- The library's body obligation with the result's window forgotten, at every point. -/
theorem body_obligationF (c : Dev nD) :
    BodyObligationLoose (datsF (F := F) m 0 c) (defs₀ (F := F)) Variants.none () Set.univ fgtOut := fun t => by
  rw [bigSep_W0, bigSep_W0]
  exact sound_bodyF m c t

theorem hinF (c : Dev nD) : Pipeline.ΦA spec0 c ⊢ (datsF m 0 c).Φ 0 := Idealize.SL.BI.Entails.refl _

theorem houtF (c : Dev nD) : (datsF m 0 c).Φ (Fin.last cfg0.N) ⊢ Pipeline.ΦA spec0 c := by
  rw [show (datsF m 0 c).Φ (Fin.last cfg0.N) = PhiS m c 20 from rfl, PhiS_pos m c 20 (by decide), PhiA_eq]
  iintro ⟨HS, Hg⟩
  isplitl [HS]
  · iexists _; iexact HS
  iexact Hg

set_option backward.isDefEq.respectTransparency.types false in
/-- Every weakly fair execution of the program terminates without a fault; the input arrays end at their launch
    contents, the result array at some contents. -/
theorem run_frame : θ_run defs (onTc (τ := τ) (main (F := F))) (s₀ m ρ)
    (Pipeline.RDat.FramePost cfg0 (fun c => (datsF m 0 c).toRForget fgtOut) (V m)) :=
  Pipeline.RDat.θ_run_frame_track cfgs (0 : Fin 1) launch0 defs₀ Variants.none (fun c => (datsF m 0 c).toRForget fgtOut) m ρ main
    (hbody := fun c => (body_obligationF m c).toRForget)
    (hshare := fun c => (datsF m 0 c).share_full fun _ => rfl) (howed := fun _ _ => rfl)
    (V := V m) (hmain := hmain m Variants.none) (hA := fun _ _ => rfl) (hin := hinF m) (hout := houtF m)

/-- The frame claim's post, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.arr_in c (0 : Fin 3) rfl).trans (V_main_arg0 m c),
      (h.arr_in c (1 : Fin 3) rfl).trans (V_main_arg1 m c)⟩) (run_frame m ρ)

end Cert.Kernel.Body

end
-- ==== Proof.KiRuns.lean ====
/-
  The kernel body run once for each of its two control cases, on whole staging memrefs.

  The body is called at every point of a grid of twenty. At the first point it casts the whole
  embedding table (10000 × 128) to the narrow format and keeps it in a scratch buffer; at every point
  it multiplies its 512 × 10000 block of the adjacency, cast likewise, by the scratch's contents
  into a zero accumulator and stores the 512 × 128 product in the result's staging buffer.
  Each run is a subtype: the lists of pieces its stores leave in the result's buffer (and, at the
  first point, in the scratch) together with the weakest-precondition fact that from the buffers at
  given contents the body reaches any continuation that accepts the buffers with those pieces written.
-/
import proofs.«161093_g54185307407137_cont_9to1_m_922_8_alg».proof.Proof.Gen.KernelIdeal.Frame
import proofs.«161093_g54185307407137_cont_9to1_m_922_8_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The body's one branch condition, from the grid coordinate: "this is the first point". -/
abbrev isFirst (i : grid0.Coords) : Prop :=
  (Scalar.cmpi .ne (Scalar.extui (Scalar.cmpi .eq (BitVec.ofNat 32 (i 0).val) 0#32)) 0#32) = 1#1

/-- Over the grid of twenty it holds exactly at point 0. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- The first point: the embedding buffer at `x2`, the adjacency block's buffer at `x1`, the result's buffer and
    the scratch at anything. The scratch is stored whole (pieces `LS`), then read back for the product, which is
    stored whole into the result's buffer (pieces `L3`). -/
noncomputable def runFirst (c : Dev nD) (i : grid0.Coords)
    (arg1 : Memref sig .tc .vmem S512x10000 .f32) (harg1 : arg1.IsWhole) (arg2 : Memref sig .tc .vmem S10000x128 .f32) (harg2 : arg2.IsWhole)
    (arg3 : Memref sig .tc .vmem S512x128 .f32) (harg3 : arg3.IsWhole) (arg4 : Memref sig .tc .vmem S10000x128 .bf16) (harg4 : arg4.IsWhole)
    (hc : isFirst i) (x1 : Vec F S512x10000 .f32) (x2 : Vec F S10000x128 .f32) :
    Σ' (L3 : List (View.Piece (Elt F) S512x128 .f32)), { LS : List (View.Piece (Elt F) S10000x128 .bf16) //
      ∀ (E : Set ℕ) (K : PUnit → sProp 𝕄),
        iprop(owns (c : Thread nD τ) arg1 fullShare x1 ∗ owns (c : Thread nD τ) arg2 fullShare x2
            ∗ (∃ d, owns (c : Thread nD τ) arg3 fullShare d) ∗ (∃ d, owns (c : Thread nD τ) arg4 fullShare d)
            ∗ (iprop(owns (c : Thread nD τ) arg1 fullShare x1 ∗ owns (c : Thread nD τ) arg2 fullShare x2
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f LS)) -∗ K ⟨⟩))
          ⊢ wp frame (wpE (defs₀ (F := F)) Variants.none c none) E (cc0__gcn_body i arg1 harg1 arg2 harg2 arg3 harg3 arg4 harg4) K } := by
  refine ⟨?_, ?_, fun E K => ?run⟩
  case run =>
    simp only [cc0__gcn_body_eq_skeleton]; unfold cc0__gcn_body_skel
    unfold owns
    iintro ⟨⟨%f1, %hf1, H1⟩, ⟨%f2, %hf2, H2⟩, ⟨%d3, %f3, -, H3⟩, ⟨%d4, %f4, -, H4⟩, Hk⟩
    obtain rfl := harg1.eq_unread hf1; obtain rfl := harg2.eq_unread hf2
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; iexact H4

set_option maxHeartbeats 1000000 in
/-- Every later point: the scratch arrives at `xs` and is only read; the product is stored whole into the
    result's buffer (pieces `L3`). The embedding's buffer is not touched. -/
noncomputable def runLater (c : Dev nD) (i : grid0.Coords)
    (arg1 : Memref sig .tc .vmem S512x10000 .f32) (harg1 : arg1.IsWhole) (arg2 : Memref sig .tc .vmem S10000x128 .f32) (harg2 : arg2.IsWhole)
    (arg3 : Memref sig .tc .vmem S512x128 .f32) (harg3 : arg3.IsWhole) (arg4 : Memref sig .tc .vmem S10000x128 .bf16) (harg4 : arg4.IsWhole)
    (hc : ¬isFirst i) (x1 : Vec F S512x10000 .f32) (xs : Vec F S10000x128 .bf16) :
    { L3 : List (View.Piece (Elt F) S512x128 .f32) //
      ∀ (x2 : Vec F S10000x128 .f32) (E : Set ℕ) (K : PUnit → sProp 𝕄),
        iprop(owns (c : Thread nD τ) arg1 fullShare x1 ∗ owns (c : Thread nD τ) arg2 fullShare x2
            ∗ (∃ d, owns (c : Thread nD τ) arg3 fullShare d) ∗ owns (c : Thread nD τ) arg4 fullShare xs
            ∗ (iprop(owns (c : Thread nD τ) arg1 fullShare x1 ∗ owns (c : Thread nD τ) arg2 fullShare x2
                ∗ (∃ f, arg3.view.loc (c : Thread nD τ) ↦[arg3.view.set]{fullShare} arg3.view.writes (Elt F) f L3)
                ∗ owns (c : Thread nD τ) arg4 fullShare xs) -∗ K ⟨⟩))
          ⊢ wp frame (wpE (defs₀ (F := F)) Variants.none c none) E (cc0__gcn_body i arg1 harg1 arg2 harg2 arg3 harg3 arg4 harg4) K } := by
  refine ⟨?_, fun x2 E K => ?run⟩
  case run =>
    simp only [cc0__gcn_body_eq_skeleton]; unfold cc0__gcn_body_skel
    unfold owns
    iintro ⟨⟨%f1, %hf1, H1⟩, ⟨%f2, %hf2, H2⟩, ⟨%d3, %f3, -, H3⟩, ⟨%f4, %hf4, H4⟩, Hk⟩
    obtain rfl := harg1.eq_unread hf1; obtain rfl := harg4.eq_unread hf4
    sl_exec (disch := exact hc)
    sl_step
    iapply Hk
    isplitl [H1]
    · iexists _; isplitr; · ipureintro; exact harg1.read_unread _
      iexact H1
    isplitl [H2]
    · iexists _; isplitr; · ipureintro; exact hf2
      iexact H2
    isplitl [H3]; · iexists _; iexact H3
    iexists _; isplitr; · ipureintro; exact harg4.read_unread _
    iexact H4

end Cert.KernelIdeal.Body

end
-- ==== Proof.KiPieces.lean ====
/-
  What the body's stores leave, read back: at the first point the scratch holds the narrow cast of the
  embedding buffer's contents and the result's buffer the product of the (cast) adjacency block by that; at a
  later point the result's buffer holds the product of the block by whatever the scratch arrived holding.
  Each is the one whole-buffer store of its run, so the canonical contents of the piece list is the payload.
-/
import proofs.«161093_g54185307407137_cont_9to1_m_922_8_alg».proof.Proof.KiRuns
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section
variable (c : Dev nD) (i : grid0.Coords)
    (arg1 : Memref sig .tc .vmem S512x10000 .f32) (harg1 : arg1.IsWhole) (arg2 : Memref sig .tc .vmem S10000x128 .f32) (harg2 : arg2.IsWhole)
    (arg3 : Memref sig .tc .vmem S512x128 .f32) (harg3 : arg3.IsWhole) (arg4 : Memref sig .tc .vmem S10000x128 .bf16) (harg4 : arg4.IsWhole)

theorem coverFirst_sc (hc : isFirst i) (x1 : Vec F S512x10000 .f32) (x2 : Vec F S10000x128 .f32) (y : S10000x128.Idx) :
    ∃ pc ∈ (runFirst c i arg1 harg1 arg2 harg2 arg3 harg3 arg4 harg4 hc x1 x2).2.1, y ∈ pc.1.set :=
  View.cover_of_tiledL _ S10000x128.size (by sl_kernel_rfl) y

theorem coverFirst_out (hc : isFirst i) (x1 : Vec F S512x10000 .f32) (x2 : Vec F S10000x128 .f32) (y : S512x128.Idx) :
    ∃ pc ∈ (runFirst c i arg1 harg1 arg2 harg2 arg3 harg3 arg4 harg4 hc x1 x2).1, y ∈ pc.1.set :=
  View.cover_of_tiledL _ S512x128.size (by sl_kernel_rfl) y

theorem coverLater_out (hc : ¬isFirst i) (x1 : Vec F S512x10000 .f32) (xs : Vec F S10000x128 .bf16) (y : S512x128.Idx) :
    ∃ pc ∈ (runLater c i arg1 harg1 arg2 harg2 arg3 harg3 arg4 harg4 hc x1 xs).1, y ∈ pc.1.set :=
  View.cover_of_tiledL _ S512x128.size (by sl_kernel_rfl) y

theorem canonFirst_sc (hc : isFirst i) (x1 : Vec F S512x10000 .f32) (x2 : Vec F S10000x128 .f32) :
    View.canon (runFirst c i arg1 harg1 arg2 harg2 arg3 harg3 arg4 harg4 hc x1 x2).2.1 = k0_pay1 x2 := by
  unfold runFirst; dsimp only; sl_unfold_words
  rw [View.canon_unit_zero hz2]
  simp only [View.readAt_eq_ld, harg2.read_unread, View.ld_unit_zero (S := S10000x128) hz2]

theorem canonFirst_out (hc : isFirst i) (x1 : Vec F S512x10000 .f32) (x2 : Vec F S10000x128 .f32) :
    View.canon (runFirst c i arg1 harg1 arg2 harg2 arg3 harg3 arg4 harg4 hc x1 x2).1 = k0_pay2 x1 (k0_pay1 x2) := by
  unfold runFirst; dsimp only; sl_unfold_words
  rw [View.canon_unit_zero hz2]
  simp only [View.readAt_eq_ld, harg1.read_unread, harg2.read_unread, View.ld_unit_zero (S := S10000x128) hz2,
    View.ld_unit_zero (S := S512x10000) hz2, View.readCov_unit_zero (S := S10000x128) _ hz2]

theorem canonLater_out (hc : ¬isFirst i) (x1 : Vec F S512x10000 .f32) (xs : Vec F S10000x128 .bf16) :
    View.canon (runLater c i arg1 harg1 arg2 harg2 arg3 harg3 arg4 harg4 hc x1 xs).1 = k0_pay2 x1 xs := by
  unfold runLater; dsimp only; sl_unfold_words
  rw [View.canon_unit_zero hz2]
  simp only [View.readAt_eq_ld, harg1.read_unread, harg4.read_unread, View.ld_unit_zero (S := S10000x128) hz2,
    View.ld_unit_zero (S := S512x10000) hz2]
end

end Cert.KernelIdeal.Body

end
-- ==== Proof.KiFrame.lean ====
/-
  The frame of the program: it terminates, nothing faults, and the adjacency and the embedding table end as
  they began. Nothing is said here of the result array: the last of the twenty row blocks overhangs the
  adjacency by 240 rows, the fetch of that block leaves words nothing names in the staging buffer's tail, and at
  the word level the product of a block with such a tail is not a function of the rows inside the array; so
  the result's staging buffer is handed to the body and taken back at contents left unnamed. What IS tracked from
  point to point is the scratch: after the first point it holds the narrow cast of the embedding table as that
  point's buffer held it, and every later point finds it so and leaves it so.
-/
import proofs.«161093_g54185307407137_cont_9to1_m_922_8_alg».proof.Proof.KiPieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it to the body. -/
abbrev ms0 (t : Fin cfg0.N) : Memref sig .tc .vmem S512x10000 .f32 := win0_0.stage (cfg0.slots t 0)
abbrev ms1 (t : Fin cfg0.N) : Memref sig .tc .vmem S10000x128 .f32 := win0_1.stage (cfg0.slots t 1)
abbrev ms2 (t : Fin cfg0.N) : Memref sig .tc .vmem S512x128 .f32 := win0_2.stage (cfg0.slots t 2)
/-- The scratch: a whole scoped buffer of the kernel's own. -/
abbrev scM : Memref sig .tc .vmem S10000x128 .bf16 := Memref.whole cc0_scratch0

/-- What the launch hands the region: the scratch at anything, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The first grid point. -/
abbrev t0 : Fin cfg0.N := ⟨0, by decide⟩

/-- The embedding table as the first point's staging buffer holds it. -/
def embBlk (c : Dev nD) : Vec F S10000x128 .f32 := iblk m c 1 t0

/-- The invariant before position `n`: at the start the launch's; afterwards the scratch at the narrow cast of the
    embedding table. -/
def PhiS (c : Dev nD) : ℕ → sProp 𝕄
  | 0 => Pipeline.ΦA spec0 c
  | _ + 1 => iprop(iprop(owns (c : Thread nD τ) scM fullShare (k0_pay1 (embBlk m c))) ∗ (∃ r, prngReg c r))

theorem PhiS_succ (c : Dev nD) (n : ℕ) :
    PhiS m c (n + 1) = iprop(iprop(owns (c : Thread nD τ) scM fullShare (k0_pay1 (embBlk m c))) ∗ (∃ r, prngReg c r)) := rfl

theorem PhiS_pos (c : Dev nD) (n : ℕ) (hn : n ≠ 0) :
    PhiS m c n = iprop(iprop(owns (c : Thread nD τ) scM fullShare (k0_pay1 (embBlk m c))) ∗ (∃ r, prngReg c r)) := by
  cases n with
  | zero => exact absurd rfl hn
  | succ n => rfl

/-- The windows the frame says nothing of: the result's. -/
abbrev fgtOut : Fin cfg0.W → Bool := fun | 0 => false | 1 => false | 2 => true | ⟨_ + 3, h⟩ => absurd h (Nat.not_lt.2 (Nat.le_add_left _ _))

/-- The proof data: the arrays as launched; after the body the adjacency block's buffer holds the block on the rows
    inside the array (elsewhere unconstrained: the zero filler is never read), the embedding's buffer the table; the
    result's buffer is unnamed. -/
def datsF (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => fun _ => Scalar.ofBits .f32 0#32
  Φ t := PhiS m c t.val
  q _ := fullShare
  owed _ := 0

/-- The adjacency block's buffer was just fetched: the block on the rows inside the array, `d` past them. -/
theorem beforeF_0 (c : Dev nD) (t : Fin cfg0.N) (d) :
    (datsF m 0 c).before 0 t d = win0_0.fill (grid0.coords t) d (iblk m c 0 t) := by
  unfold Dat.before; rw [if_pos (fetch0_0 t)]; rfl

/-- The embedding's buffer holds the table at every point, fetched there or not. -/
theorem beforeF_1 (c : Dev nD) (t : Fin cfg0.N) (d) : (datsF m 0 c).before 1 t d = iblk m c 1 t :=
  before0_1_of m (datsF m 0 c) rfl (fun _ => rfl) t d

set_option maxHeartbeats 1600000 in
/-- The body at any point. -/
theorem sound_bodyF (c : Dev nD) (t : Fin cfg0.N) :
    iprop((datsF m 0 c).Φ t.castSucc ∗ (datsF m 0 c).owesAt () t.castSucc
      ∗ (∃ d, owns (c : Thread nD τ) (ms0 t) fullShare ((datsF m 0 c).before 0 t d))
      ∗ (∃ d, owns (c : Thread nD τ) (ms1 t) fullShare ((datsF m 0 c).before 1 t d))
      ∗ (∃ X, owns (c : Thread nD τ) (ms2 t) fullShare X))
    ⊢ wp frame (wpE (defs₀ (F := F)) Variants.none c none) Set.univ (bodyAt0 t) (fun _ =>
      iprop((datsF m 0 c).Φ t.succ ∗ (datsF m 0 c).owesAt () t.succ
        ∗ (∃ d, owns (c : Thread nD τ) (ms0 t) fullShare (win0_0.fill (grid0.coords t) d (win0_0.cut (grid0.coords t) ((datsF m 0 c).after 0 t))))
        ∗ owns (c : Thread nD τ) (ms1 t) fullShare ((datsF m 0 c).after 1 t)
        ∗ (∃ X, owns (c : Thread nD τ) (ms2 t) fullShare X))) := by
  unfold bodyAt0
  simp only [beforeF_0, beforeF_1]
  rw [show (datsF m 0 c).owesAt () t.succ = (datsF m 0 c).owesAt () t.castSucc from rfl]
  rw [show (datsF m 0 c).Φ t.succ = PhiS m c (t.val + 1) from rfl,
    show (datsF m 0 c).Φ t.castSucc = PhiS m c t.val from rfl, PhiS_succ]
  have hcut : win0_0.cut (grid0.coords t) ((datsF m 0 c).after 0 t) = iblk m c 0 t := win0_0.cut_fill _ _ _
  rw [hcut, show (datsF m 0 c).after 1 t = iblk m c 1 t from rfl]
  by_cases hz : t.val = 0
  · have hc : isFirst (grid0.coords t) := (isFirst_iff t).mpr hz
    have ht : t = t0 := Fin.ext hz
    rw [show PhiS m c t.val = Pipeline.ΦA spec0 c from by rw [hz]; rfl, PhiA_eq]
    iintro ⟨⟨HS, Hg⟩, Ho, ⟨%d0, H0⟩, ⟨%d1, H1⟩, H2⟩
    iapply ((runFirst c (grid0.coords t) _ _ _ _ _ _ _ _ hc (win0_0.fill (grid0.coords t) d0 (iblk m c 0 t)) (iblk m c 1 t)).2.2 Set.univ _)
    isplitl [H0]; · iexact H0
    isplitl [H1]; · iexact H1
    isplitl [H2]; · iexact H2
    isplitl [HS]; · iexact HS
    iintro ⟨H0, H1, ⟨%e3, H3⟩, ⟨%e4, H4⟩⟩
    isplitl [H4 Hg]
    · isplitl [H4]
      · unfold owns; iexists _; isplitr
        swap; · iexact H4
        ipureintro
        rw [View.read_writes_eq_canon _ _ _ (coverFirst_sc c _ _ _ _ _ _ _ _ _ _ _ _), canonFirst_sc, ht]; rfl
      iexact Hg
    isplitl [Ho]; · iexact Ho
    isplitl [H0]; · iexists d0; iexact H0
    isplitl [H1]; · iexact H1
    iexists _; unfold owns; iexists _; isplitr
    swap; · iexact H3
    ipureintro; rfl
  · have hc : ¬isFirst (grid0.coords t) := fun h => hz ((isFirst_iff t).mp h)
    rw [PhiS_pos m c t.val hz]
    iintro ⟨⟨HS, Hg⟩, Ho, ⟨%d0, H0⟩, ⟨%d1, H1⟩, H2⟩
    iapply ((runLater c (grid0.coords t) _ _ _ _ _ _ _ _ hc (win0_0.fill (grid0.coords t) d0 (iblk m c 0 t)) (k0_pay1 (embBlk m c))).2 (iblk m c 1 t) Set.univ _)
    isplitl [H0]; · iexact H0
    isplitl [H1]; · iexact H1
    isplitl [H2]; · iexact H2
    isplitl [HS]; · iexact HS
    iintro ⟨H0, H1, ⟨%e3, H3⟩, HS⟩
    isplitl [HS Hg]
    · isplitl [HS]; · iexact HS
      iexact Hg
    isplitl [Ho]; · iexact Ho
    isplitl [H0]; · iexists d0; iexact H0
    isplitl [H1]; · iexact H1
    iexists _; unfold owns; iexists _; isplitr
    swap; · iexact H3
    ipureintro; rfl

/-- The library's body obligation with the result's window forgotten, at every point. -/
theorem body_obligationF (c : Dev nD) :
    BodyObligationLoose (datsF (F := F) m 0 c) (defs₀ (F := F)) Variants.none () Set.univ fgtOut := fun t => by
  rw [bigSep_W0, bigSep_W0]
  exact sound_bodyF m c t

theorem hinF (c : Dev nD) : Pipeline.ΦA spec0 c ⊢ (datsF m 0 c).Φ 0 := Idealize.SL.BI.Entails.refl _

theorem houtF (c : Dev nD) : (datsF m 0 c).Φ (Fin.last cfg0.N) ⊢ Pipeline.ΦA spec0 c := by
  rw [show (datsF m 0 c).Φ (Fin.last cfg0.N) = PhiS m c 20 from rfl, PhiS_pos m c 20 (by decide), PhiA_eq]
  iintro ⟨HS, Hg⟩
  isplitl [HS]
  · iexists _; iexact HS
  iexact Hg

set_option backward.isDefEq.respectTransparency.types false in
/-- Every weakly fair execution of the program terminates without a fault; the input arrays end at their launch
    contents, the result array at some contents. -/
theorem run_frame : θ_run defs (onTc (τ := τ) (main (F := F))) (s₀ m ρ)
    (Pipeline.RDat.FramePost cfg0 (fun c => (datsF m 0 c).toRForget fgtOut) (V m)) :=
  Pipeline.RDat.θ_run_frame_track cfgs (0 : Fin 1) launch0 defs₀ Variants.none (fun c => (datsF m 0 c).toRForget fgtOut) m ρ main
    (hbody := fun c => (body_obligationF m c).toRForget)
    (hshare := fun c => (datsF m 0 c).share_full fun _ => rfl) (howed := fun _ _ => rfl)
    (V := V m) (hmain := hmain m Variants.none) (hA := fun _ _ => rfl) (hin := hinF m) (hout := houtF m)

/-- The frame claim's post, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.arr_in c (0 : Fin 3) rfl).trans (V_main_arg0 m c),
      (h.arr_in c (1 : Fin 3) rfl).trans (V_main_arg1 m c)⟩) (run_frame m ρ)

end Cert.KernelIdeal.Body

end
-- ==== Proof.KiPayload.lean ====
/-
  The body's two payloads read at an entry, on the extended reals: the narrowing casts are the identity, so the
  stored product at (r, c) is the sum over the 10000 contracted positions k of block(r, k) · table(k, c), and the
  narrow table kept in scratch is the table itself.
-/
import proofs.«161093_g54185307407137_cont_9to1_m_922_8_alg».proof.Proof.KiFrame
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Body

local notation "𝕄" => MT nD τ sig Unit (Elt Ideal) ℕ (UR sig nD τ) ℕ

abbrev dotK := dot_S512x10000_S10000x128_S512x128_1_0_0_1_n_n

/-- Entry (row of `j`, `k`) of an adjacency block and entry (`k`, column of `j`) of the table. -/
abbrev lblk (j : S512x128.Idx) (k : Fin 10000) : S512x10000.Idx := fun a => match a with
  | ⟨0, _⟩ => ⟨(j 0).val, (j 0).isLt⟩
  | ⟨1, _⟩ => ⟨k.val, k.isLt⟩
abbrev rblk (j : S512x128.Idx) (k : Fin 10000) : S10000x128.Idx := fun a => match a with
  | ⟨0, _⟩ => ⟨k.val, k.isLt⟩
  | ⟨1, _⟩ => ⟨(j 1).val, (j 1).isLt⟩

theorem lhsK_0 (i : S512x128.Idx) (q : dot_S512x10000_S10000x128_S512x128_1_0_0_1_n_n.contr.Idx) :
    (dot_S512x10000_S10000x128_S512x128_1_0_0_1_n_n.lhsIdx i q 0).val = (i 0).val := by
  unfold DotDims.lhsIdx
  rw [dif_neg (show ¬(0 : Fin S512x10000.rank) ∈ dot_S512x10000_S10000x128_S512x128_1_0_0_1_n_n.lhsBatch by decide), dif_pos (show (0 : Fin S512x10000.rank) ∈ dot_S512x10000_S10000x128_S512x128_1_0_0_1_n_n.lhsNonContracting by decide)]
  rfl
theorem lhsK_1 (i : S512x128.Idx) (q : dot_S512x10000_S10000x128_S512x128_1_0_0_1_n_n.contr.Idx) :
    (dot_S512x10000_S10000x128_S512x128_1_0_0_1_n_n.lhsIdx i q 1).val = (q ⟨0, by decide⟩).val :=
  dot_S512x10000_S10000x128_S512x128_1_0_0_1_n_n.lhsIdx_val_of_single rfl i q
theorem rhsK_0 (i : S512x128.Idx) (q : dot_S512x10000_S10000x128_S512x128_1_0_0_1_n_n.contr.Idx) :
    (dot_S512x10000_S10000x128_S512x128_1_0_0_1_n_n.rhsIdx i q 0).val = (q ⟨0, by decide⟩).val :=
  dot_S512x10000_S10000x128_S512x128_1_0_0_1_n_n.rhsIdx_val_of_single rfl i q
theorem rhsK_1 (i : S512x128.Idx) (q : dot_S512x10000_S10000x128_S512x128_1_0_0_1_n_n.contr.Idx) :
    (dot_S512x10000_S10000x128_S512x128_1_0_0_1_n_n.rhsIdx i q 1).val = (i 1).val := by
  unfold DotDims.rhsIdx
  rw [dif_neg (show ¬(1 : Fin S10000x128.rank) ∈ dot_S512x10000_S10000x128_S512x128_1_0_0_1_n_n.rhsBatch by decide), dif_pos (show (1 : Fin S10000x128.rank) ∈ dot_S512x10000_S10000x128_S512x128_1_0_0_1_n_n.rhsNonContracting by decide)]
  rfl

/-- The stored product at an entry: the row of the block times the column of the narrow table, summed over the
    10000 contracted positions (the narrowing of the block is the identity on extended reals). -/
theorem pay2_apply (a : FVec Ideal S512x10000 .f32) (s : FVec Ideal S10000x128 .bf16) (j : S512x128.Idx) :
    k0_pay2 (F := Ideal) a s j = ∑ k : Fin 10000, a (lblk j k) * s (rblk j k) := by
  unfold k0_pay2
  simp only [matmul]
  rw [Ideal.matmul_constant_zero_apply, ← Equiv.sum_comp (ValueIdx.contrEquiv1 dot_S512x10000_S10000x128_S512x128_1_0_0_1_n_n 10000 rfl rfl).symm]
  refine Finset.sum_congr rfl fun k _ => ?_
  have hk := ValueIdx.contrEquiv1_symm_val dot_S512x10000_S10000x128_S512x128_1_0_0_1_n_n 10000 rfl rfl k
  have el : dot_S512x10000_S10000x128_S512x128_1_0_0_1_n_n.lhsIdx j ((ValueIdx.contrEquiv1 dot_S512x10000_S10000x128_S512x128_1_0_0_1_n_n 10000 rfl rfl).symm k) = lblk j k := funext fun a => Fin.ext (by
    match a with
    | ⟨0, _⟩ => exact lhsK_0 _ _
    | ⟨1, _⟩ => exact (lhsK_1 _ _).trans hk)
  have er : dot_S512x10000_S10000x128_S512x128_1_0_0_1_n_n.rhsIdx j ((ValueIdx.contrEquiv1 dot_S512x10000_S10000x128_S512x128_1_0_0_1_n_n 10000 rfl rfl).symm k) = rblk j k := funext fun a => Fin.ext (by
    match a with
    | ⟨0, _⟩ => exact (rhsK_0 _ _).trans hk
    | ⟨1, _⟩ => exact rhsK_1 _ _)
  rw [el, er]
  rfl

/-- The narrow table at an entry is the table's entry. -/
theorem pay1_apply (e : FVec Ideal S10000x128 .f32) (y : S10000x128.Idx) : k0_pay1 (F := Ideal) e y = e y := by
  unfold k0_pay1
  rw [shapeCast_self]
  rfl

end Cert.KernelIdeal.Val

end
-- ==== Proof.KiBlocks.lean ====
/-
  Where the blocks sit and what the stored product is, at the extended reals. The result's block at point t is rows
  512·t … of the product adjacency · table: entry (r, c) of the stored block reads row r of the adjacency block's
  buffer and column c of the table, and for a row inside the array that row of the buffer is row 512·t + r of the
  adjacency, whatever the fetch left in the buffer's rows past the array's end.
-/
import proofs.«161093_g54185307407137_cont_9to1_m_922_8_alg».proof.Proof.KiPayload

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Body

local notation "𝕄" => MT nD τ sig Unit (Elt Ideal) ℕ (UR sig nD τ) ℕ

variable (m : (ℓ : Loc nD τ sig) → Buf (Elt Ideal) ℓ) (ρ : Dev nD → PrngReg)

/-- Where the blocks sit, decided over the grid of twenty: the adjacency's and the result's block at point `t` start at
    row 512·t and column 0; both are cut to the same number of rows (512, and 272 at the last point) and to no fewer columns. -/
theorem grid_facts : ∀ t : Fin cfg0.N,
    win0_0.index t 0 = t.val ∧ win0_0.index t 1 = 0 ∧ win0_2.index t 0 = t.val ∧ win0_2.index t 1 = 0
    ∧ win0_0.xsize (grid0.coords t) 0 = win0_2.xsize (grid0.coords t) 0
    ∧ win0_0.xsize (grid0.coords t) 1 = 10000 ∧ win0_2.xsize (grid0.coords t) 1 = 128
    ∧ win0_2.xsize (grid0.coords t) 0 = (if t.val = 19 then 272 else 512) :=
  (by decide +kernel : ∀ t : Fin grid0.N,
    win0_0.index t 0 = t.val ∧ win0_0.index t 1 = 0 ∧ win0_2.index t 0 = t.val ∧ win0_2.index t 1 = 0
    ∧ win0_0.xsize (grid0.coords t) 0 = win0_2.xsize (grid0.coords t) 0
    ∧ win0_0.xsize (grid0.coords t) 1 = 10000 ∧ win0_2.xsize (grid0.coords t) 1 = 128
    ∧ win0_2.xsize (grid0.coords t) 0 = (if t.val = 19 then 272 else 512))

/-- The table's one block is the whole table. -/
theorem emb_facts : win0_1.index t0 0 = 0 ∧ win0_1.index t0 1 = 0 := by decide +kernel

/-- Entry (row of `i`, `k`) of the adjacency and entry (`k`, column of `i`) of the table. -/
abbrev lIdx (i : S10000x128.Idx) (k : Fin 10000) : S10000x10000.Idx := fun a => match a with
  | ⟨0, _⟩ => ⟨(i 0).val, (i 0).isLt⟩
  | ⟨1, _⟩ => ⟨k.val, k.isLt⟩
abbrev rIdx (i : S10000x128.Idx) (k : Fin 10000) : S10000x128.Idx := fun a => match a with
  | ⟨0, _⟩ => ⟨k.val, k.isLt⟩
  | ⟨1, _⟩ => ⟨(i 1).val, (i 1).isLt⟩

/-- The matrix product adjacency · table on the extended reals, entry by entry. -/
def prod (A : FVec Ideal S10000x10000 .f32) (E : FVec Ideal S10000x128 .f32) : FVec Ideal S10000x128 .f32 :=
  fun i => ∑ k : Fin 10000, A (lIdx i k) * E (rIdx i k)

theorem embBlk_apply (c : Dev nD) (y : S10000x128.Idx) : embBlk m c y = V m c main_arg1 y := by
  show V m c main_arg1 (((cfg0.win 1).blk t0).view.emb y) = V m c main_arg1 y
  refine congrArg _ (funext fun a => Fin.ext ?_)
  match a with
  | ⟨0, _⟩ => show win0_1.index t0 0 * 10000 + 1 * (y 0).val = (y 0).val; rw [emb_facts.1]; omega
  | ⟨1, _⟩ => show win0_1.index t0 1 * 128 + 1 * (y 1).val = (y 1).val; rw [emb_facts.2]; omega

/-- An entry of the adjacency block at point `t` is the adjacency's entry 512·t rows further down. -/
theorem adjBlk_apply (c : Dev nD) (t : Fin cfg0.N) (y : (win0_0.xblock (grid0.coords t)).Idx) (i : S10000x10000.Idx)
    (h0 : (i 0).val = win0_0.index t 0 * 512 + (y 0).val) (h1 : (i 1).val = win0_0.index t 1 * 10000 + (y 1).val) :
    iblk m c 0 t y = V m c main_arg0 i := by
  show V m c main_arg0 ((win0_0.rect t).emb y) = V m c main_arg0 i
  refine congrArg _ (funext fun a => Fin.ext ?_)
  match a with
  | ⟨0, _⟩ => exact (win0_0.rect_emb_val t y 0).trans h0.symm
  | ⟨1, _⟩ => exact (win0_0.rect_emb_val t y 1).trans h1.symm

/-- Entry `j` of the stored product, for a row `j 0` inside the array, is entry `i` of the whole product when `i` is `j`
    moved 512·t rows down — whatever fills the adjacency block's buffer past the array's end: the entry reads only row
    `j 0` of the buffer, all of whose 10000 columns the fetch filled. -/
theorem pay2_row (c : Dev nD) (t : Fin cfg0.N) (d0 : S512x10000.Idx → Elt Ideal .f32) (j : S512x128.Idx) (i : S10000x128.Idx)
    (hj0 : (j 0).val < win0_0.xsize (grid0.coords t) 0)
    (hi0 : (i 0).val = win0_0.index t 0 * 512 + (j 0).val) (hi1 : (i 1).val = (j 1).val) :
    k0_pay2 (F := Ideal) (win0_0.fill (grid0.coords t) d0 (iblk m c 0 t)) (k0_pay1 (F := Ideal) (embBlk m c)) j
      = prod (V m c main_arg0) (V m c main_arg1) i := by
  obtain ⟨h00, h01, h20, h21, hx0, hx01, hx21, hx2⟩ := grid_facts t
  rw [pay2_apply]
  unfold prod
  refine Finset.sum_congr rfl fun k _ => ?_
  congr 1
  · have hmv : win0_0.moved (grid0.coords t) (lblk j k) = true :=
      (win0_0.moved_iff _ _).mpr fun a => by
        match a with
        | ⟨0, _⟩ => exact hj0
        | ⟨1, _⟩ => show k.val < win0_0.xsize (grid0.coords t) 1; rw [hx01]; exact k.isLt
    unfold Window.fill; rw [dif_pos hmv]
    exact adjBlk_apply m c t _ _ hi0 (by show k.val = win0_0.index t 1 * 10000 + k.val; rw [h01]; omega)
  · rw [pay1_apply, embBlk_apply]
    refine congrArg _ (funext fun a => Fin.ext ?_)
    match a with
    | ⟨0, _⟩ => rfl
    | ⟨1, _⟩ => exact hi1.symm

/-- The rows of the stored product that lie inside the array are the product's rows there. -/
theorem cut_pay2 (c : Dev nD) (t : Fin cfg0.N) (d0 : S512x10000.Idx → Elt Ideal .f32) :
    win0_2.cut (grid0.coords t) (k0_pay2 (F := Ideal) (win0_0.fill (grid0.coords t) d0 (iblk m c 0 t)) (k0_pay1 (F := Ideal) (embBlk m c)))
      = (win0_2.blk t).view.read (Elt Ideal) (prod (V m c main_arg0) (V m c main_arg1)) := by
  funext j
  obtain ⟨h00, h01, h20, h21, hx0, hx01, hx21, hx2⟩ := grid_facts t
  show _ = prod (V m c main_arg0) (V m c main_arg1) ((win0_2.rect t).emb j)
  refine pay2_row m c t d0 (win0_2.xinj (grid0.coords t) j) ((win0_2.rect t).emb j) ?_ ?_ ?_
  · show (j 0).val < win0_0.xsize (grid0.coords t) 0; rw [hx0]; exact (j 0).isLt
  · rw [h00, ← h20]; exact win0_2.rect_emb_val t j 0
  · refine (win0_2.rect_emb_val t j 1).trans ?_; rw [h21]; show 0 * 128 + (j 1).val = (j 1).val; omega

end Cert.KernelIdeal.Val

end
-- ==== Proof.KiValue.lean ====
/-
  The run of the idealized kernel with its result named. The proof data say what the result's staging buffer holds
  after the body at point t on the rows inside the array: rows 512·t … of the product adjacency · table; the rows past
  the array's end (the last block overhangs it by 240 rows) are left to the obligation's quantifier and never written
  back. The write-backs' blocks — nineteen of 512 rows and one of 272 — cover the result array, which therefore ends
  holding the product.
-/
import proofs.«161093_g54185307407137_cont_9to1_m_922_8_alg».proof.Proof.KiBlocks

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Body

local notation "𝕄" => MT nD τ sig Unit (Elt Ideal) ℕ (UR sig nD τ) ℕ

variable (m : (ℓ : Loc nD τ sig) → Buf (Elt Ideal) ℓ) (ρ : Dev nD → PrngReg)

/-- The product of the launch contents of the two argument arrays. -/
abbrev prodArr (c : Dev nD) : FVec Ideal S10000x128 .f32 := prod (V m c main_arg0) (V m c main_arg1)

/-- The proof data with the result named: after the body at point `t` the result's staging buffer holds, on the rows
    inside the array, rows 512·t … of the product (past them the obligation states nothing; the zero filler is never
    read). The other windows and the invariant are the frame's. -/
def datsV (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => Scalar.ofBits (F := Ideal) .f32 0#32) (iblk m c 0 t)
    | ⟨1, _⟩ => iblk m c 1 t
    | ⟨2, _⟩ => win0_2.fill (grid0.coords t) (fun _ => Scalar.ofBits (F := Ideal) .f32 0#32) ((win0_2.blk t).view.read (Elt Ideal) (prodArr m c))
  Φ t := PhiS m c t.val
  q _ := fullShare
  owed _ := 0

theorem beforeV_0 (c : Dev nD) (t : Fin cfg0.N) (d) :
    (datsV m 0 c).before 0 t d = win0_0.fill (grid0.coords t) d (iblk m c 0 t) := by
  unfold Dat.before; rw [if_pos (fetch0_0 t)]; rfl

theorem beforeV_1 (c : Dev nD) (t : Fin cfg0.N) (d) : (datsV m 0 c).before 1 t d = iblk m c 1 t :=
  before0_1_of m (datsV m 0 c) rfl (fun _ => rfl) t d

/-- The stored product's rows inside the array are what the proof data names, so the stored block is one of the
    contents the obligation allows. -/
theorem leaves_out (c : Dev nD) (t : Fin cfg0.N) (d0 : S512x10000.Idx → Elt Ideal .f32) :
    k0_pay2 (F := Ideal) (win0_0.fill (grid0.coords t) d0 (iblk m c 0 t)) (k0_pay1 (F := Ideal) (embBlk m c))
      = win0_2.fill (grid0.coords t) (k0_pay2 (F := Ideal) (win0_0.fill (grid0.coords t) d0 (iblk m c 0 t)) (k0_pay1 (F := Ideal) (embBlk m c)))
          (win0_2.cut (grid0.coords t) ((datsV m 0 c).after 2 t)) := by
  have e : win0_2.cut (grid0.coords t) ((datsV m 0 c).after 2 t) = (win0_2.blk t).view.read (Elt Ideal) (prodArr m c) :=
    win0_2.cut_fill _ _ _
  rw [e, ← cut_pay2 m c t d0, win0_2.fill_cut]

set_option maxHeartbeats 1600000 in
/-- The body at any point, the result named. -/
theorem sound_bodyV (c : Dev nD) (t : Fin cfg0.N) :
    iprop((datsV m 0 c).Φ t.castSucc ∗ (datsV m 0 c).owesAt () t.castSucc
      ∗ (∃ d, owns (c : Thread nD τ) (ms0 t) fullShare ((datsV m 0 c).before 0 t d))
      ∗ (∃ d, owns (c : Thread nD τ) (ms1 t) fullShare ((datsV m 0 c).before 1 t d))
      ∗ (∃ d, owns (c : Thread nD τ) (ms2 t) fullShare ((datsV m 0 c).before 2 t d)))
    ⊢ wp frame (wpE (defs₀ (F := Ideal)) Variants.none c none) Set.univ (bodyAt0 t) (fun _ =>
      iprop((datsV m 0 c).Φ t.succ ∗ (datsV m 0 c).owesAt () t.succ
        ∗ (∃ d, owns (c : Thread nD τ) (ms0 t) fullShare (win0_0.fill (grid0.coords t) d (win0_0.cut (grid0.coords t) ((datsV m 0 c).after 0 t))))
        ∗ owns (c : Thread nD τ) (ms1 t) fullShare ((datsV m 0 c).after 1 t)
        ∗ (∃ d, owns (c : Thread nD τ) (ms2 t) fullShare (win0_2.fill (grid0.coords t) d (win0_2.cut (grid0.coords t) ((datsV m 0 c).after 2 t)))))) := by
  unfold bodyAt0
  simp only [beforeV_0, beforeV_1]
  rw [show (datsV m 0 c).owesAt () t.succ = (datsV m 0 c).owesAt () t.castSucc from rfl]
  rw [show (datsV m 0 c).Φ t.succ = PhiS m c (t.val + 1) from rfl,
    show (datsV m 0 c).Φ t.castSucc = PhiS m c t.val from rfl, PhiS_succ]
  have hcut : win0_0.cut (grid0.coords t) ((datsV m 0 c).after 0 t) = iblk m c 0 t := win0_0.cut_fill _ _ _
  rw [hcut, show (datsV m 0 c).after 1 t = iblk m c 1 t from rfl]
  by_cases hz : t.val = 0
  · have hc : isFirst (grid0.coords t) := (isFirst_iff t).mpr hz
    have ht : t = t0 := Fin.ext hz
    rw [show PhiS m c t.val = Pipeline.ΦA spec0 c from by rw [hz]; rfl, PhiA_eq]
    iintro ⟨⟨HS, Hg⟩, Ho, ⟨%d0, H0⟩, ⟨%d1, H1⟩, ⟨%d2, H2⟩⟩
    iapply ((runFirst c (grid0.coords t) _ _ _ _ _ _ _ _ hc (win0_0.fill (grid0.coords t) d0 (iblk m c 0 t)) (iblk m c 1 t)).2.2 Set.univ _)
    isplitl [H0]; · iexact H0
    isplitl [H1]; · iexact H1
    isplitl [H2]; · iexists _; iexact H2
    isplitl [HS]; · iexact HS
    iintro ⟨H0, H1, ⟨%e3, H3⟩, ⟨%e4, H4⟩⟩
    isplitl [H4 Hg]
    · isplitl [H4]
      · unfold owns; iexists _; isplitr
        swap; · iexact H4
        ipureintro
        rw [View.read_writes_eq_canon _ _ _ (coverFirst_sc c _ _ _ _ _ _ _ _ _ _ _ _), canonFirst_sc, ht]; rfl
      iexact Hg
    isplitl [Ho]; · iexact Ho
    isplitl [H0]; · iexists d0; iexact H0
    isplitl [H1]; · iexact H1
    iexists _; unfold owns; iexists _; isplitr
    swap; · iexact H3
    ipureintro
    rw [View.read_writes_eq_canon _ _ _ (coverFirst_out c _ _ _ _ _ _ _ _ _ _ _ _), canonFirst_out]
    have e1 : iblk m c 1 t = embBlk m c := by rw [ht]; rfl
    rw [e1]
    exact leaves_out m c t d0
  · have hc : ¬isFirst (grid0.coords t) := fun h => hz ((isFirst_iff t).mp h)
    rw [PhiS_pos m c t.val hz]
    iintro ⟨⟨HS, Hg⟩, Ho, ⟨%d0, H0⟩, ⟨%d1, H1⟩, ⟨%d2, H2⟩⟩
    iapply ((runLater c (grid0.coords t) _ _ _ _ _ _ _ _ hc (win0_0.fill (grid0.coords t) d0 (iblk m c 0 t)) (k0_pay1 (embBlk m c))).2 (iblk m c 1 t) Set.univ _)
    isplitl [H0]; · iexact H0
    isplitl [H1]; · iexact H1
    isplitl [H2]; · iexists _; iexact H2
    isplitl [HS]; · iexact HS
    iintro ⟨H0, H1, ⟨%e3, H3⟩, HS⟩
    isplitl [HS Hg]
    · isplitl [HS]; · iexact HS
      iexact Hg
    isplitl [Ho]; · iexact Ho
    isplitl [H0]; · iexists d0; iexact H0
    isplitl [H1]; · iexact H1
    iexists _; unfold owns; iexists _; isplitr
    swap; · iexact H3
    ipureintro
    rw [View.read_writes_eq_canon _ _ _ (coverLater_out c _ _ _ _ _ _ _ _ _ _ _ _), canonLater_out]
    exact leaves_out m c t d0

/-- The library's body obligation, every window named, at every point. -/
theorem body_obligationV (c : Dev nD) :
    BodyObligationLoose (datsV m 0 c) (defs₀ (F := Ideal)) Variants.none () Set.univ := fun t => by
  rw [bigSep_W0, bigSep_W0]
  exact sound_bodyV m c t

theorem hinV (c : Dev nD) : Pipeline.ΦA spec0 c ⊢ (datsV m 0 c).Φ 0 := Idealize.SL.BI.Entails.refl _

theorem houtV (c : Dev nD) : (datsV m 0 c).Φ (Fin.last cfg0.N) ⊢ Pipeline.ΦA spec0 c := by
  rw [show (datsV m 0 c).Φ (Fin.last cfg0.N) = PhiS m c 20 from rfl, PhiS_pos m c 20 (by decide), PhiA_eq]
  iintro ⟨HS, Hg⟩
  isplitl [HS]
  · iexists _; iexact HS
  iexact Hg

set_option backward.isDefEq.respectTransparency.types false in
/-- The run with every array named: the arguments as launched, the result at what the write-backs leave. -/
theorem run_value : θ_run defs (onTc (τ := τ) (main (F := Ideal))) (s₀ m ρ) (Pipeline.FramePost cfgs (datsV m) 0 (V m)) :=
  Pipeline.θ_run_frame_track cfgs (datsV m) (0 : Fin 1) launch0 defs₀ Variants.none m ρ main
    (hbody := body_obligationV m)
    (hshare := fun c => (datsV m 0 c).share_full fun _ => rfl) (howed := fun _ _ => rfl)
    (V := V m) (hmain := hmain m Variants.none) (hA := fun _ _ => rfl) (hin := hinV m) (hout := houtV m)

/-! ## The result array after the run -/

/-- What point `t` writes back: rows 512·t … of the product. -/
theorem flushedV (c : Dev nD) (t : Fin cfg0.N) :
    (datsV m 0 c).flushed 2 t = (win0_2.blk t).view.read (Elt Ideal) (prodArr m c) := win0_2.cut_fill _ _ _

/-- An entry of the result lies in point `t`'s block exactly when its row is one of the block's rows inside the array
    (the block spans all 128 columns). -/
theorem mem_blk2 (t : Fin cfg0.N) (i : S10000x128.Idx) :
    i ∈ (win0_2.blk t).view.set ↔ win0_2.index t 0 * 512 ≤ (i 0 : Nat) ∧ (i 0 : Nat) < win0_2.index t 0 * 512 + win0_2.xsize (grid0.coords t) 0 := by
  show i ∈ ((View.whole main_v0).slice (win0_2.rect t)).set ↔ _
  rw [View.set_slice_whole, Rect.mem_set_unit]
  obtain ⟨h00, h01, h20, h21, hx0, hx01, hx21, hx2⟩ := grid_facts t
  have h1 : (i 1 : Nat) < 128 := (i 1).isLt
  refine ⟨fun h => h 0, fun h a => ?_⟩
  match a with
  | ⟨0, _⟩ => exact h
  | ⟨1, _⟩ =>
    change win0_2.index t 1 * win0_2.size 1 ≤ (i 1 : Nat) ∧ (i 1 : Nat) < win0_2.index t 1 * win0_2.size 1 + win0_2.xsize (grid0.coords t) 1
    rw [h21, hx21]; omega

/-- Every row below 10000 lies in the block of the point ⌊row / 512⌋: nineteen blocks of 512 rows and a last one of 272. -/
theorem cover2 (i : S10000x128.Idx) : ∃ t : Fin cfg0.N, (cfg0.win 2).flush t = true ∧ i ∈ ((cfg0.win 2).blk t).view.set := by
  have hi : (i 0 : Nat) < 10000 := (i 0).isLt
  have hN : cfg0.N = 20 := N_0
  have ht : (i 0 : Nat) / 512 < cfg0.N := by rw [hN]; omega
  refine ⟨⟨(i 0 : Nat) / 512, ht⟩, flush0_2 _, ?_⟩
  obtain ⟨h00, h01, h20, h21, hx0, hx01, hx21, hx2⟩ := grid_facts ⟨(i 0 : Nat) / 512, ht⟩
  show i ∈ (win0_2.blk ⟨(i 0 : Nat) / 512, ht⟩).view.set
  rw [mem_blk2, h20, hx2]
  dsimp only
  split <;> omega

/-- The result array ends holding the product adjacency · table. -/
theorem finalV (c : Dev nD) : (datsV m 0 c).arrAt 2 cfg0.N = prodArr m c :=
  (datsV m 0 c).arrAt_eq_of_cover 2 (prodArr m c) (fun t _ => flushedV m c t) cover2

end Cert.KernelIdeal.Val

end
-- ==== Proof.lean ====
/-
  The five claims. Both programs compute, at the extended reals, the matrix product of the adjacency by the
  embedding table, entry (r, c) being the sum over k of adj(r, k) · emb(k, c): the kernel block by block, its
  narrowing casts the identity there, the reference as one contraction. No algebraic law is needed to join the
  two sides, so the precondition is never opened. The word-level kernel's frame says nothing of its result.
-/
import proofs.«161093_g54185307407137_cont_9to1_m_922_8_alg».proof.Defs
import proofs.«161093_g54185307407137_cont_9to1_m_922_8_alg».proof.Proof.KFrame
import proofs.«161093_g54185307407137_cont_9to1_m_922_8_alg».proof.Proof.KiValue
import proofs.«161093_g54185307407137_cont_9to1_m_922_8_alg».proof.Proof.Gen.ReferenceIdeal
import proofs.«161093_g54185307407137_cont_9to1_m_922_8_alg».proof.Proof.Gen.ReferenceIdeal.Run
import proofs.«161093_g54185307407137_cont_9to1_m_922_8_alg».proof.Proof.Gen.ReferenceIdeal.Read
import proofs.«161093_g54185307407137_cont_9to1_m_922_8_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The reference's contraction, entry by entry, is the same sum. -/
theorem ref_is_prod (A : FVec Ideal Cert.KernelIdeal.S10000x10000 .f32) (E : FVec Ideal Cert.KernelIdeal.S10000x128 .f32) :
    Cert.ReferenceIdeal.Read.val_main_v0 (F := Ideal) A E = Cert.KernelIdeal.Val.prod A E := by
  funext i
  rw [Cert.ReferenceIdeal.Read.val_main_v0_apply]
  rfl

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.KernelIdeal.Val.prodArr m c, ?_, ?_⟩
  · refine (θ_run Cert.KernelIdeal.defs _ _).mono (fun r h c => ⟨?_, ?_, ?_⟩) (Cert.KernelIdeal.Val.run_value m ρ)
    · exact ((h c).1 2).trans (Cert.KernelIdeal.Val.finalV m c)
    · exact ((h c).1 0).trans (((Cert.KernelIdeal.Val.datsV m 0 c).arrAt_in 0 rfl _).trans (Cert.KernelIdeal.Gen.V_main_arg0 m c))
    · exact ((h c).1 1).trans (((Cert.KernelIdeal.Val.datsV m 0 c).arrAt_in 1 rfl _).trans (Cert.KernelIdeal.Gen.V_main_arg1 m c))
  · refine (θ_run Cert.ReferenceIdeal.defs _ _).mono (fun r h c => ⟨?_, (h c).2⟩)
      (Cert.ReferenceIdeal.Value.run (F := Ideal) m' ρ')
    rw [(h c).1, Cert.ReferenceIdeal.Read.val_main_v0_eq, (hagree c).1, (hagree c).2]
    exact ref_is_prod _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
